-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S128x32 : Shape := ⟨2, ![128, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S4x2048x4096 .f32) (main_arg1 : FVec F S16384x4096 .f32) (main_arg2 : FVec F S128x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S128x32 : Shape := ⟨2, ![128, 32]⟩
abbrev S8192x4096 : Shape := ⟨2, ![8192, 4096]⟩
abbrev S128x128x32 : Shape := ⟨3, ![128, 128, 32]⟩
abbrev S16384x32 : Shape := ⟨2, ![16384, 32]⟩
abbrev S512x4096 : Shape := ⟨2, ![512, 4096]⟩
abbrev S512x32 : Shape := ⟨2, ![512, 32]⟩
abbrev S512x128 : Shape := ⟨2, ![512, 128]⟩
abbrev S512x1 : Shape := ⟨2, ![512, 1]⟩
abbrev S8192x16384 : Shape := ⟨2, ![8192, 16384]⟩
abbrev S1024x4096 : Shape := ⟨2, ![1024, 4096]⟩
abbrev S512x1024 : Shape := ⟨2, ![512, 1024]⟩
abbrev S4x2048x16384 : Shape := ⟨3, ![4, 2048, 16384]⟩

abbrev nBuf : Space → Nat
  | .hbm => 10
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S128x32, .f32⟩
  | .hbm, ⟨3, _⟩ => ⟨S8192x4096, .f32⟩
  | .hbm, ⟨4, _⟩ => ⟨S8192x4096, .bf16⟩
  | .hbm, ⟨5, _⟩ => ⟨S128x128x32, .f32⟩
  | .hbm, ⟨6, _⟩ => ⟨S16384x32, .f32⟩
  | .hbm, ⟨7, _⟩ => ⟨S16384x4096, .bf16⟩
  | .hbm, ⟨8, _⟩ => ⟨S8192x16384, .f32⟩
  | .hbm, ⟨9, _⟩ => ⟨S4x2048x16384, .f32⟩
  | .local _ .vmem, ⟨0, _⟩ => ⟨S512x4096, .f32⟩
  | .local _ .vmem, ⟨1, _⟩ => ⟨S512x4096, .f32⟩
  | .local _ .vmem, ⟨2, _⟩ => ⟨S512x32, .f32⟩
  | .local _ .vmem, ⟨3, _⟩ => ⟨S512x32, .f32⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1024x4096, .bf16⟩
  | .local _ .vmem, ⟨10, _⟩ => ⟨S512x1024, .f32⟩
  | .local _ .vmem, ⟨11, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x4096_S8192x4096 : S4x2048x4096.ShapeCasts S8192x4096
  bitsLt_bf16_f32 : FTy.bits .bf16 < FTy.bits .f32
  bcast_S128x32_S128x128x32_0_2 : S128x32.BroadcastsInDim S128x128x32 (![0, 2] : Fin 2 → Fin S128x128x32.rank)
  shapeCasts_S128x128x32_S16384x32 : S128x128x32.ShapeCasts S16384x32
  inb_S512x4096_S512x4096_0_0 : ∀ a, (![0, 0] : Fin 2 → Nat) a + S512x4096.size a ≤ S512x4096.size a
  h_S512x4096 : 0 < S512x4096.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  slices_S512x4096_o0_0_S512x128 : S512x4096.Slices ![0, 0] S512x128
  slices_S512x32_o0_0_S512x1 : S512x32.Slices ![0, 0] S512x1
  broadcasts_S512x1_S512x128 : S512x1.Broadcasts S512x128
  inb_S512x4096_S512x128_0_0 : ∀ a, (![0, 0] : Fin 2 → Nat) a + S512x128.size a ≤ S512x4096.size a
  h_S512x128 : 0 < S512x128.numel
  packedbf16_S512x4096_S512x128_0_0 : (Rect.unit (s := S512x4096) ![0, 0] S512x128.size inb_S512x4096_S512x128_0_0).PackedRows (EltTy.packing .bf16)
  slices_S512x4096_o0_128_S512x128 : S512x4096.Slices ![0, 128] S512x128
  slices_S512x32_o0_1_S512x1 : S512x32.Slices ![0, 1] S512x1
  inb_S512x4096_S512x128_0_128 : ∀ a, (![0, 128] : Fin 2 → Nat) a + S512x128.size a ≤ S512x4096.size a
  packedbf16_S512x4096_S512x128_0_128 : (Rect.unit (s := S512x4096) ![0, 128] S512x128.size inb_S512x4096_S512x128_0_128).PackedRows (EltTy.packing .bf16)
  slices_S512x4096_o0_256_S512x128 : S512x4096.Slices ![0, 256] S512x128
  slices_S512x32_o0_2_S512x1 : S512x32.Slices ![0, 2] S512x1
  inb_S512x4096_S512x128_0_256 : ∀ a, (![0, 256] : Fin 2 → Nat) a + S512x128.size a ≤ S512x4096.size a
  packedbf16_S512x4096_S512x128_0_256 : (Rect.unit (s := S512x4096) ![0, 256] S512x128.size inb_S512x4096_S512x128_0_256).PackedRows (EltTy.packing .bf16)
  slices_S512x4096_o0_384_S512x128 : S512x4096.Slices ![0, 384] S512x128
  slices_S512x32_o0_3_S512x1 : S512x32.Slices ![0, 3] S512x1
  inb_S512x4096_S512x128_0_384 : ∀ a, (![0, 384] : Fin 2 → Nat) a + S512x128.size a ≤ S512x4096.size a
  packedbf16_S512x4096_S512x128_0_384 : (Rect.unit (s := S512x4096) ![0, 384] S512x128.size inb_S512x4096_S512x128_0_384).PackedRows (EltTy.packing .bf16)
  slices_S512x4096_o0_512_S512x128 : S512x4096.Slices ![0, 512] S512x128
  slices_S512x32_o0_4_S512x1 : S512x32.Slices ![0, 4] S512x1
  inb_S512x4096_S512x128_0_512 : ∀ a, (![0, 512] : Fin 2 → Nat) a + S512x128.size a ≤ S512x4096.size a
  packedbf16_S512x4096_S512x128_0_512 : (Rect.unit (s := S512x4096) ![0, 512] S512x128.size inb_S512x4096_S512x128_0_512).PackedRows (EltTy.packing .bf16)
  slices_S512x4096_o0_640_S512x128 : S512x4096.Slices ![0, 640] S512x128
  slices_S512x32_o0_5_S512x1 : S512x32.Slices ![0, 5] S512x1
  inb_S512x4096_S512x128_0_640 : ∀ a, (![0, 640] : Fin 2 → Nat) a + S512x128.size a ≤ S512x4096.size a
  packedbf16_S512x4096_S512x128_0_640 : (Rect.unit (s := S512x4096) ![0, 640] S512x128.size inb_S512x4096_S512x128_0_640).PackedRows (EltTy.packing .bf16)
  slices_S512x4096_o0_768_S512x128 : S512x4096.Slices ![0, 768] S512x128
  slices_S512x32_o0_6_S512x1 : S512x32.Slices ![0, 6] S512x1
  inb_S512x4096_S512x128_0_768 : ∀ a, (![0, 768] : Fin 2 → Nat) a + S512x128.size a ≤ S512x4096.size a
  packedbf16_S512x4096_S512x128_0_768 : (Rect.unit (s := S512x4096) ![0, 768] S512x128.size inb_S512x4096_S512x128_0_768).PackedRows (EltTy.packing .bf16)
  slices_S512x4096_o0_896_S512x128 : S512x4096.Slices ![0, 896] S512x128
  slices_S512x32_o0_7_S512x1 : S512x32.Slices ![0, 7] S512x1
  inb_S512x4096_S512x128_0_896 : ∀ a, (![0, 896] : Fin 2 → Nat) a + S512x128.size a ≤ S512x4096.size a
  packedbf16_S512x4096_S512x128_0_896 : (Rect.unit (s := S512x4096) ![0, 896] S512x128.size inb_S512x4096_S512x128_0_896).PackedRows (EltTy.packing .bf16)
  slices_S512x4096_o0_1024_S512x128 : S512x4096.Slices ![0, 1024] S512x128
  slices_S512x32_o0_8_S512x1 : S512x32.Slices ![0, 8] S512x1
  inb_S512x4096_S512x128_0_1024 : ∀ a, (![0, 1024] : Fin 2 → Nat) a + S512x128.size a ≤ S512x4096.size a
  packedbf16_S512x4096_S512x128_0_1024 : (Rect.unit (s := S512x4096) ![0, 1024] S512x128.size inb_S512x4096_S512x128_0_1024).PackedRows (EltTy.packing .bf16)
  slices_S512x4096_o0_1152_S512x128 : S512x4096.Slices ![0, 1152] S512x128
  slices_S512x32_o0_9_S512x1 : S512x32.Slices ![0, 9] S512x1
  inb_S512x4096_S512x128_0_1152 : ∀ a, (![0, 1152] : Fin 2 → Nat) a + S512x128.size a ≤ S512x4096.size a
  packedbf16_S512x4096_S512x128_0_1152 : (Rect.unit (s := S512x4096) ![0, 1152] S512x128.size inb_S512x4096_S512x128_0_1152).PackedRows (EltTy.packing .bf16)
  slices_S512x4096_o0_1280_S512x128 : S512x4096.Slices ![0, 1280] S512x128
  slices_S512x32_o0_10_S512x1 : S512x32.Slices ![0, 10] S512x1
  inb_S512x4096_S512x128_0_1280 : ∀ a, (![0, 1280] : Fin 2 → Nat) a + S512x128.size a ≤ S512x4096.size a
  packedbf16_S512x4096_S512x128_0_1280 : (Rect.unit (s := S512x4096) ![0, 1280] S512x128.size inb_S512x4096_S512x128_0_1280).PackedRows (EltTy.packing .bf16)
  slices_S512x4096_o0_1408_S512x128 : S512x4096.Slices ![0, 1408] S512x128
  slices_S512x32_o0_11_S512x1 : S512x32.Slices ![0, 11] S512x1
  inb_S512x4096_S512x128_0_1408 : ∀ a, (![0, 1408] : Fin 2 → Nat) a + S512x128.size a ≤ S512x4096.size a
  packedbf16_S512x4096_S512x128_0_1408 : (Rect.unit (s := S512x4096) ![0, 1408] S512x128.size inb_S512x4096_S512x128_0_1408).PackedRows (EltTy.packing .bf16)
  slices_S512x4096_o0_1536_S512x128 : S512x4096.Slices ![0, 1536] S512x128
  slices_S512x32_o0_12_S512x1 : S512x32.Slices ![0, 12] S512x1
  inb_S512x4096_S512x128_0_1536 : ∀ a, (![0, 1536] : Fin 2 → Nat) a + S512x128.size a ≤ S512x4096.size a
  packedbf16_S512x4096_S512x128_0_1536 : (Rect.unit (s := S512x4096) ![0, 1536] S512x128.size inb_S512x4096_S512x128_0_1536).PackedRows (EltTy.packing .bf16)
  slices_S512x4096_o0_1664_S512x128 : S512x4096.Slices ![0, 1664] S512x128
  slices_S512x32_o0_13_S512x1 : S512x32.Slices ![0, 13] S512x1
  inb_S512x4096_S512x128_0_1664 : ∀ a, (![0, 1664] : Fin 2 → Nat) a + S512x128.size a ≤ S512x4096.size a
  packedbf16_S512x4096_S512x128_0_1664 : (Rect.unit (s := S512x4096) ![0, 1664] S512x128.size inb_S512x4096_S512x128_0_1664).PackedRows (EltTy.packing .bf16)
  slices_S512x4096_o0_1792_S512x128 : S512x4096.Slices ![0, 1792] S512x128
  slices_S512x32_o0_14_S512x1 : S512x32.Slices ![0, 14] S512x1
  inb_S512x4096_S512x128_0_1792 : ∀ a, (![0, 1792] : Fin 2 → Nat) a + S512x128.size a ≤ S512x4096.size a
  packedbf16_S512x4096_S512x128_0_1792 : (Rect.unit (s := S512x4096) ![0, 1792] S512x128.size inb_S512x4096_S512x128_0_1792).PackedRows (EltTy.packing .bf16)
  slices_S512x4096_o0_1920_S512x128 : S512x4096.Slices ![0, 1920] S512x128
  slices_S512x32_o0_15_S512x1 : S512x32.Slices ![0, 15] S512x1
  inb_S512x4096_S512x128_0_1920 : ∀ a, (![0, 1920] : Fin 2 → Nat) a + S512x128.size a ≤ S512x4096.size a
  packedbf16_S512x4096_S512x128_0_1920 : (Rect.unit (s := S512x4096) ![0, 1920] S512x128.size inb_S512x4096_S512x128_0_1920).PackedRows (EltTy.packing .bf16)
  slices_S512x4096_o0_2048_S512x128 : S512x4096.Slices ![0, 2048] S512x128
  slices_S512x32_o0_16_S512x1 : S512x32.Slices ![0, 16] S512x1
  inb_S512x4096_S512x128_0_2048 : ∀ a, (![0, 2048] : Fin 2 → Nat) a + S512x128.size a ≤ S512x4096.size a
  packedbf16_S512x4096_S512x128_0_2048 : (Rect.unit (s := S512x4096) ![0, 2048] S512x128.size inb_S512x4096_S512x128_0_2048).PackedRows (EltTy.packing .bf16)
  slices_S512x4096_o0_2176_S512x128 : S512x4096.Slices ![0, 2176] S512x128
  slices_S512x32_o0_17_S512x1 : S512x32.Slices ![0, 17] S512x1
  inb_S512x4096_S512x128_0_2176 : ∀ a, (![0, 2176] : Fin 2 → Nat) a + S512x128.size a ≤ S512x4096.size a
  packedbf16_S512x4096_S512x128_0_2176 : (Rect.unit (s := S512x4096) ![0, 2176] S512x128.size inb_S512x4096_S512x128_0_2176).PackedRows (EltTy.packing .bf16)
  slices_S512x4096_o0_2304_S512x128 : S512x4096.Slices ![0, 2304] S512x128
  slices_S512x32_o0_18_S512x1 : S512x32.Slices ![0, 18] S512x1
  inb_S512x4096_S512x128_0_2304 : ∀ a, (![0, 2304] : Fin 2 → Nat) a + S512x128.size a ≤ S512x4096.size a
  packedbf16_S512x4096_S512x128_0_2304 : (Rect.unit (s := S512x4096) ![0, 2304] S512x128.size inb_S512x4096_S512x128_0_2304).PackedRows (EltTy.packing .bf16)
  slices_S512x4096_o0_2432_S512x128 : S512x4096.Slices ![0, 2432] S512x128
  slices_S512x32_o0_19_S512x1 : S512x32.Slices ![0, 19] S512x1
  inb_S512x4096_S512x128_0_2432 : ∀ a, (![0, 2432] : Fin 2 → Nat) a + S512x128.size a ≤ S512x4096.size a
  packedbf16_S512x4096_S512x128_0_2432 : (Rect.unit (s := S512x4096) ![0, 2432] S512x128.size inb_S512x4096_S512x128_0_2432).PackedRows (EltTy.packing .bf16)
  slices_S512x4096_o0_2560_S512x128 : S512x4096.Slices ![0, 2560] S512x128
  slices_S512x32_o0_20_S512x1 : S512x32.Slices ![0, 20] S512x1
  inb_S512x4096_S512x128_0_2560 : ∀ a, (![0, 2560] : Fin 2 → Nat) a + S512x128.size a ≤ S512x4096.size a
  packedbf16_S512x4096_S512x128_0_2560 : (Rect.unit (s := S512x4096) ![0, 2560] S512x128.size inb_S512x4096_S512x128_0_2560).PackedRows (EltTy.packing .bf16)
  slices_S512x4096_o0_2688_S512x128 : S512x4096.Slices ![0, 2688] S512x128
  slices_S512x32_o0_21_S512x1 : S512x32.Slices ![0, 21] S512x1
  inb_S512x4096_S512x128_0_2688 : ∀ a, (![0, 2688] : Fin 2 → Nat) a + S512x128.size a ≤ S512x4096.size a
  packedbf16_S512x4096_S512x128_0_2688 : (Rect.unit (s := S512x4096) ![0, 2688] S512x128.size inb_S512x4096_S512x128_0_2688).PackedRows (EltTy.packing .bf16)
  slices_S512x4096_o0_2816_S512x128 : S512x4096.Slices ![0, 2816] S512x128
  slices_S512x32_o0_22_S512x1 : S512x32.Slices ![0, 22] S512x1
  inb_S512x4096_S512x128_0_2816 : ∀ a, (![0, 2816] : Fin 2 → Nat) a + S512x128.size a ≤ S512x4096.size a
  packedbf16_S512x4096_S512x128_0_2816 : (Rect.unit (s := S512x4096) ![0, 2816] S512x128.size inb_S512x4096_S512x128_0_2816).PackedRows (EltTy.packing .bf16)
  slices_S512x4096_o0_2944_S512x128 : S512x4096.Slices ![0, 2944] S512x128
  slices_S512x32_o0_23_S512x1 : S512x32.Slices ![0, 23] S512x1
  inb_S512x4096_S512x128_0_2944 : ∀ a, (![0, 2944] : Fin 2 → Nat) a + S512x128.size a ≤ S512x4096.size a
  packedbf16_S512x4096_S512x128_0_2944 : (Rect.unit (s := S512x4096) ![0, 2944] S512x128.size inb_S512x4096_S512x128_0_2944).PackedRows (EltTy.packing .bf16)
  slices_S512x4096_o0_3072_S512x128 : S512x4096.Slices ![0, 3072] S512x128
  slices_S512x32_o0_24_S512x1 : S512x32.Slices ![0, 24] S512x1
  inb_S512x4096_S512x128_0_3072 : ∀ a, (![0, 3072] : Fin 2 → Nat) a + S512x128.size a ≤ S512x4096.size a
  packedbf16_S512x4096_S512x128_0_3072 : (Rect.unit (s := S512x4096) ![0, 3072] S512x128.size inb_S512x4096_S512x128_0_3072).PackedRows (EltTy.packing .bf16)
  slices_S512x4096_o0_3200_S512x128 : S512x4096.Slices ![0, 3200] S512x128
  slices_S512x32_o0_25_S512x1 : S512x32.Slices ![0, 25] S512x1
  inb_S512x4096_S512x128_0_3200 : ∀ a, (![0, 3200] : Fin 2 → Nat) a + S512x128.size a ≤ S512x4096.size a
  packedbf16_S512x4096_S512x128_0_3200 : (Rect.unit (s := S512x4096) ![0, 3200] S512x128.size inb_S512x4096_S512x128_0_3200).PackedRows (EltTy.packing .bf16)
  slices_S512x4096_o0_3328_S512x128 : S512x4096.Slices ![0, 3328] S512x128
  slices_S512x32_o0_26_S512x1 : S512x32.Slices ![0, 26] S512x1
  inb_S512x4096_S512x128_0_3328 : ∀ a, (![0, 3328] : Fin 2 → Nat) a + S512x128.size a ≤ S512x4096.size a
  packedbf16_S512x4096_S512x128_0_3328 : (Rect.unit (s := S512x4096) ![0, 3328] S512x128.size inb_S512x4096_S512x128_0_3328).PackedRows (EltTy.packing .bf16)
  slices_S512x4096_o0_3456_S512x128 : S512x4096.Slices ![0, 3456] S512x128
  slices_S512x32_o0_27_S512x1 : S512x32.Slices ![0, 27] S512x1
  inb_S512x4096_S512x128_0_3456 : ∀ a, (![0, 3456] : Fin 2 → Nat) a + S512x128.size a ≤ S512x4096.size a
  packedbf16_S512x4096_S512x128_0_3456 : (Rect.unit (s := S512x4096) ![0, 3456] S512x128.size inb_S512x4096_S512x128_0_3456).PackedRows (EltTy.packing .bf16)
  slices_S512x4096_o0_3584_S512x128 : S512x4096.Slices ![0, 3584] S512x128
  slices_S512x32_o0_28_S512x1 : S512x32.Slices ![0, 28] S512x1
  inb_S512x4096_S512x128_0_3584 : ∀ a, (![0, 3584] : Fin 2 → Nat) a + S512x128.size a ≤ S512x4096.size a
  packedbf16_S512x4096_S512x128_0_3584 : (Rect.unit (s := S512x4096) ![0, 3584] S512x128.size inb_S512x4096_S512x128_0_3584).PackedRows (EltTy.packing .bf16)
  slices_S512x4096_o0_3712_S512x128 : S512x4096.Slices ![0, 3712] S512x128
  slices_S512x32_o0_29_S512x1 : S512x32.Slices ![0, 29] S512x1
  inb_S512x4096_S512x128_0_3712 : ∀ a, (![0, 3712] : Fin 2 → Nat) a + S512x128.size a ≤ S512x4096.size a
  packedbf16_S512x4096_S512x128_0_3712 : (Rect.unit (s := S512x4096) ![0, 3712] S512x128.size inb_S512x4096_S512x128_0_3712).PackedRows (EltTy.packing .bf16)
  slices_S512x4096_o0_3840_S512x128 : S512x4096.Slices ![0, 3840] S512x128
  slices_S512x32_o0_30_S512x1 : S512x32.Slices ![0, 30] S512x1
  inb_S512x4096_S512x128_0_3840 : ∀ a, (![0, 3840] : Fin 2 → Nat) a + S512x128.size a ≤ S512x4096.size a
  packedbf16_S512x4096_S512x128_0_3840 : (Rect.unit (s := S512x4096) ![0, 3840] S512x128.size inb_S512x4096_S512x128_0_3840).PackedRows (EltTy.packing .bf16)
  slices_S512x4096_o0_3968_S512x128 : S512x4096.Slices ![0, 3968] S512x128
  slices_S512x32_o0_31_S512x1 : S512x32.Slices ![0, 31] S512x1
  inb_S512x4096_S512x128_0_3968 : ∀ a, (![0, 3968] : Fin 2 → Nat) a + S512x128.size a ≤ S512x4096.size a
  packedbf16_S512x4096_S512x128_0_3968 : (Rect.unit (s := S512x4096) ![0, 3968] S512x128.size inb_S512x4096_S512x128_0_3968).PackedRows (EltTy.packing .bf16)
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S16384x32.size a
  hwx0_1 : ∀ i : grid0.Coords, EltTy.bits .f32 = 32 ∨ (Rect.block (s := S16384x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .bf16 = 32 ∨ (Rect.block (s := S16384x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S16384x4096.size a
  hwx1_1 : ∀ i : grid1.Coords, EltTy.bits .bf16 = 32 ∨ (Rect.block (s := S16384x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x16384.size a
  hwx1_2 : ∀ i : grid1.Coords, EltTy.bits .f32 = 32 ∨ (Rect.block (s := S8192x16384) S512x1024.size (cc1_transform_2 i) (hinb1_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S128x32 : Shape := ⟨2, ![128, 32]⟩
abbrev S128x128x32 : Shape := ⟨3, ![128, 128, 32]⟩
abbrev S16384x32 : Shape := ⟨2, ![16384, 32]⟩
abbrev S16384x32x128 : Shape := ⟨3, ![16384, 32, 128]⟩
abbrev S4x2048x16384 : Shape := ⟨3, ![4, 2048, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S128x32, .f32⟩
  | .hbm, ⟨3, _⟩ => ⟨S128x128x32, .f32⟩
  | .hbm, ⟨4, _⟩ => ⟨S16384x32, .f32⟩
  | .hbm, ⟨5, _⟩ => ⟨S16384x32x128, .f32⟩
  | .hbm, ⟨6, _⟩ => ⟨S16384x4096, .f32⟩
  | .hbm, ⟨7, _⟩ => ⟨S16384x4096, .f32⟩
  | .hbm, ⟨8, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S128x32_S128x128x32_0_2 : S128x32.BroadcastsInDim S128x128x32 (![0, 2] : Fin 2 → Fin S128x128x32.rank)
  shapeCasts_S128x128x32_S16384x32 : S128x128x32.ShapeCasts S16384x32
  bcast_S16384x32_S16384x32x128_0_1 : S16384x32.BroadcastsInDim S16384x32x128 (![0, 1] : Fin 2 → Fin S16384x32x128.rank)
  shapeCasts_S16384x32x128_S16384x4096 : S16384x32x128.ShapeCasts S16384x4096
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  What both programs compute, as functions of the three argument arrays over the extended reals.

  The weight is dequantised block by block: entry (o, k) of the [16384, 4096] weight is multiplied by the scale of
  its 128 x 128 block, `scale (o / 128, k / 128)`.  The activation, read as 8192 rows of 4096 entries, is then
  contracted with the dequantised weight along the shared axis of 4096: entry (b, s, o) of the result is
  the sum over k of `x (b, s, k) * (weight (o, k) * scale (o / 128, k / 128))`.

  One program does this in two stages with an intermediate array, so the stages are named here and each can be
  stated on its own: `scaleRows` (one row of scales per weight row: row o takes scale row o / 128), `dequant`
  (entry (o, k) of the weight times entry (o, k / 128) of those rows), `flatRows` (the activation's two leading
  axes merged, row r being (r / 2048, r % 2048)), `rowsDot` (row r of one matrix against row o of another, summed
  over the shared 4096 columns) and `unflatRows` (the leading axis split again).  `result` is the closed form;
  `staged_eq_result` says the staged composition is that closed form: at (b, s, o) the merged row is b * 2048 + s,
  whose quotient and remainder by 2048 give b and s back, and nothing else is rearranged, so the two sums agree
  term by term.
-/
import Idealize.ShloMosaic.PureOps.Ideal
import Idealize.ShloMosaic.Lib.ValueIdx

noncomputable section

namespace Cert.Spec

open Idealize.ShloMosaic Idealize.ShloMosaic.ValueIdx
open scoped BigOperators

/-- The activation [4, 2048, 4096], the weight [16384, 4096], the block scales [128, 32]. -/
abbrev Sx : Shape := ⟨3, ![4, 2048, 4096]⟩
abbrev Sw : Shape := ⟨2, ![16384, 4096]⟩
abbrev Ss : Shape := ⟨2, ![128, 32]⟩
/-- The activation as rows [8192, 4096], one row of scales per weight row [16384, 32], the product [8192, 16384]
    and the result [4, 2048, 16384]. -/
abbrev Sx2 : Shape := ⟨2, ![8192, 4096]⟩
abbrev Ssr : Shape := ⟨2, ![16384, 32]⟩
abbrev Sy2 : Shape := ⟨2, ![8192, 16384]⟩
abbrev Sy : Shape := ⟨3, ![4, 2048, 16384]⟩

/-- Weight row `o` uses scale row `o / 128`. -/
def scaleRows (s : Ss.Idx → EReal) : Ssr.Idx → EReal := fun j =>
  s (ix2 (⟨(j 0).val / 128, by have h : (j 0).val < 16384 := (j 0).isLt; omega⟩ : Fin 128)
    (⟨(j 1).val, (j 1).isLt⟩ : Fin 32))

/-- Entry (o, k) of the weight times the scale of its block of 128 columns, taken from row o of the scale rows. -/
def dequant (w : Sw.Idx → EReal) (sr : Ssr.Idx → EReal) : Sw.Idx → EReal := fun j =>
  w j * sr (ix2 (⟨(j 0).val, (j 0).isLt⟩ : Fin 16384)
    (⟨(j 1).val / 128, by have h : (j 1).val < 4096 := (j 1).isLt; omega⟩ : Fin 32))

/-- Row `r` of the flattened activation is row (r / 2048, r % 2048) of the activation. -/
def flatRows (x : Sx.Idx → EReal) : Sx2.Idx → EReal := fun j =>
  x (ix3 (⟨(j 0).val / 2048, by have h : (j 0).val < 8192 := (j 0).isLt; omega⟩ : Fin 4)
    (⟨(j 0).val % 2048, Nat.mod_lt _ (by decide)⟩ : Fin 2048)
    (⟨(j 1).val, (j 1).isLt⟩ : Fin 4096))

/-- Entry (r, o): row r of `a` against row o of `b`, summed over the 4096 shared columns. -/
def rowsDot (a : Sx2.Idx → EReal) (b : Sw.Idx → EReal) : Sy2.Idx → EReal := fun j =>
  ∑ k : Fin 4096, a (ix2 (⟨(j 0).val, (j 0).isLt⟩ : Fin 8192) k) * b (ix2 (⟨(j 1).val, (j 1).isLt⟩ : Fin 16384) k)

/-- Entry (b, s, o) is entry (b * 2048 + s, o) of the product of rows. -/
def unflatRows (y : Sy2.Idx → EReal) : Sy.Idx → EReal := fun i =>
  y (ix2 (⟨(i 0).val * 2048 + (i 1).val, by
      have h0 : (i 0).val < 4 := (i 0).isLt; have h1 : (i 1).val < 2048 := (i 1).isLt; omega⟩ : Fin 8192)
    (⟨(i 2).val, (i 2).isLt⟩ : Fin 16384))

/-- The closed form: entry (b, s, o) is the sum over k of x (b, s, k) * (weight (o, k) * scale (o / 128, k / 128)). -/
def result (x : Sx.Idx → EReal) (w : Sw.Idx → EReal) (s : Ss.Idx → EReal) : Sy.Idx → EReal := fun i =>
  ∑ k : Fin 4096,
    x (ix3 (⟨(i 0).val, (i 0).isLt⟩ : Fin 4) (⟨(i 1).val, (i 1).isLt⟩ : Fin 2048) k)
      * (w (ix2 (⟨(i 2).val, (i 2).isLt⟩ : Fin 16384) k)
        * s (ix2 (⟨(i 2).val / 128, by have h : (i 2).val < 16384 := (i 2).isLt; omega⟩ : Fin 128)
            (⟨k.val / 128, by have h := k.isLt; omega⟩ : Fin 32)))

/-- The two-stage computation is the closed form: the merged row b * 2048 + s splits back into (b, s). -/
theorem staged_eq_result (x : Sx.Idx → EReal) (w : Sw.Idx → EReal) (s : Ss.Idx → EReal) :
    unflatRows (rowsDot (flatRows x) (dequant w (scaleRows s))) = result x w s := by
  funext i
  have h0 : (i 0).val < 4 := (i 0).isLt
  have h1 : (i 1).val < 2048 := (i 1).isLt
  unfold unflatRows rowsDot result
  refine Finset.sum_congr rfl fun k _ => ?_
  unfold flatRows dequant scaleRows
  have ex : (ix3 (⟨((i 0).val * 2048 + (i 1).val) / 2048, by omega⟩ : Fin 4)
        (⟨((i 0).val * 2048 + (i 1).val) % 2048, Nat.mod_lt _ (by decide)⟩ : Fin 2048) (⟨k.val, k.isLt⟩ : Fin 4096) : Sx.Idx)
      = ix3 (⟨(i 0).val, (i 0).isLt⟩ : Fin 4) (⟨(i 1).val, (i 1).isLt⟩ : Fin 2048) k := by
    funext a
    match a with
    | ⟨0, _⟩ => exact Fin.ext (by show ((i 0).val * 2048 + (i 1).val) / 2048 = (i 0).val; omega)
    | ⟨1, _⟩ => exact Fin.ext (by show ((i 0).val * 2048 + (i 1).val) % 2048 = (i 1).val; omega)
    | ⟨2, _⟩ => rfl
  exact congrArg₂ (· * ·) (congrArg x ex) rfl

end Cert.Spec

end
-- ==== Proof.HostStretch.lean ====
/-
  The host stretches around the two regions, read at an index.

  Before the first region the program merges the activation's two leading axes (row r is (r / 2048, r % 2048)),
  narrows it to a shorter float format (no change of value on the extended reals), and repeats each row of the
  scales 128 times (row o of the repeated array is scale row o / 128).  The weight is not touched.  After the second
  region it splits the product's leading axis again (entry (b, s, o) is entry (b * 2048 + s, o)).

  Each re-layout keeps the row-major position of an entry, so reading one at an index is arithmetic on positions:
  r * 4096 + k = ((r / 2048) * 2048 + r % 2048) * 4096 + k for the activation, o * 32 + c =
  ((o / 128) * 128 + o % 128) * 32 + c for the repeated scales, and the same with 2048 and 16384 for the result.
-/
import proofs.«137778_j5523327943222_1_alg».proof.Proof.Gen.KernelIdeal.Frame
import proofs.«137778_j5523327943222_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The stretches' operations, composed -/

/-- The activation rows at the first region's entry: the merge of the leading axes, then the narrowing. -/
theorem entry_x_term (c : Dev nD) :
    W1 (F := Ideal) m ρ c (Proc.devRef .tc main_v1)
      = truncf (F := Ideal) .bf16 (shapeCast S8192x4096 (m ((c : Thread nD τ).loc main_arg0)) shapeCasts_S4x2048x4096_S8192x4096) bitsLt_bf16_f32 := by
  show StableHlo.after hostOps0 (W0 m ρ c) (Proc.devRef .tc main_v1) = _
  after_results <;> rfl

/-- The scale rows at the first region's entry: the scales repeated along a new middle axis, that axis merged into the first. -/
theorem entry_scale_term (c : Dev nD) :
    W1 (F := Ideal) m ρ c (Proc.devRef .tc main_v3)
      = shapeCast S16384x32 (broadcastInDim S128x128x32 ![0, 2] bcast_S128x32_S128x128x32_0_2 (m ((c : Thread nD τ).loc main_arg2)))
          shapeCasts_S128x128x32_S16384x32 := by
  show StableHlo.after hostOps0 (W0 m ρ c) (Proc.devRef .tc main_v3) = _
  after_results <;> rfl

/-- The result after the last stretch: the second region's output with its leading axis split. -/
theorem exit_y_term (c : Dev nD) :
    W4 (F := Ideal) m ρ c (Proc.devRef .tc main_v6)
      = shapeCast S4x2048x16384 (W3 (F := Ideal) m ρ c (Proc.devRef .tc main_v5)) shapeCasts_S8192x16384_S4x2048x16384 := by
  show StableHlo.after hostOps2 (W3 m ρ c) (Proc.devRef .tc main_v6) = _
  after_results <;> rfl

/-! ## Read at an index -/

/-- At the first region's entry the activation rows are the activation with its leading axes merged. -/
theorem entry_x (c : Dev nD) :
    W1 (F := Ideal) m ρ c (Proc.devRef .tc main_v1) = Cert.Spec.flatRows (m ((c : Thread nD τ).loc main_arg0)) := by
  refine (entry_x_term m ρ c).trans ?_
  funext j
  have h0 : (j 0).val < 8192 := (j 0).isLt
  have h1 : (j 1).val < 4096 := (j 1).isLt
  show shapeCast S8192x4096 (m ((c : Thread nD τ).loc main_arg0)) shapeCasts_S4x2048x4096_S8192x4096 j = _
  unfold Cert.Spec.flatRows
  exact shapeCast_apply _ shapeCasts_S4x2048x4096_S8192x4096 j _ (by
    rewrite [Shape.rowMajor_val_three, Shape.rowMajor_val_two]
    show ((j 0).val / 2048 * 2048 + (j 0).val % 2048) * 4096 + (j 1).val = (j 0).val * 4096 + (j 1).val
    omega)

/-- At the first region's entry the scale rows are the scales, each row repeated 128 times. -/
theorem entry_scale (c : Dev nD) :
    W1 (F := Ideal) m ρ c (Proc.devRef .tc main_v3) = Cert.Spec.scaleRows (m ((c : Thread nD τ).loc main_arg2)) := by
  refine (entry_scale_term m ρ c).trans ?_
  funext j
  have h0 : (j 0).val < 16384 := (j 0).isLt
  have h1 : (j 1).val < 32 := (j 1).isLt
  unfold Cert.Spec.scaleRows
  refine (shapeCast_apply _ shapeCasts_S128x128x32_S16384x32 j
    (ix3 (⟨(j 0).val / 128, by omega⟩ : Fin 128) (⟨(j 0).val % 128, Nat.mod_lt _ (by decide)⟩ : Fin 128) (⟨(j 1).val, h1⟩ : Fin 32)) (by
      rewrite [Shape.rowMajor_val_three, Shape.rowMajor_val_two]
      show ((j 0).val / 128 * 128 + (j 0).val % 128) * 32 + (j 1).val = (j 0).val * 32 + (j 1).val
      omega)).trans ?_
  exact broadcastInDim_apply _ bcast_S128x32_S128x128x32_0_2 _ _ _ (fun a => match a with
    | ⟨0, _⟩ => by show (j 0).val / 128 = if (128 : Nat) = 1 then 0 else (j 0).val / 128; rw [if_neg (by decide)]
    | ⟨1, _⟩ => by show (j 1).val = if (32 : Nat) = 1 then 0 else (j 1).val; rw [if_neg (by decide)])

/-- At the first region's entry the weight is as launched: no operation of the first stretch writes it. -/
theorem entry_w (c : Dev nD) :
    W1 (F := Ideal) m ρ c (Proc.devRef .tc main_arg1) = m ((c : Thread nD τ).loc main_arg1) := by
  show StableHlo.after hostOps0 (W0 m ρ c) (Proc.devRef .tc main_arg1) = _
  after_results <;> rfl

/-- After the last stretch the result is the second region's output with its leading axis split. -/
theorem exit_y (c : Dev nD) :
    W4 (F := Ideal) m ρ c (Proc.devRef .tc main_v6) = Cert.Spec.unflatRows (W3 (F := Ideal) m ρ c (Proc.devRef .tc main_v5)) := by
  refine (exit_y_term m ρ c).trans ?_
  funext i
  have h0 : (i 0).val < 4 := (i 0).isLt
  have h1 : (i 1).val < 2048 := (i 1).isLt
  have h2 : (i 2).val < 16384 := (i 2).isLt
  unfold Cert.Spec.unflatRows
  exact shapeCast_apply _ shapeCasts_S8192x16384_S4x2048x16384 i _ (by
    rewrite [Shape.rowMajor_val_three, Shape.rowMajor_val_two]
    show ((i 0).val * 2048 + (i 1).val) * 16384 + (i 2).val = ((i 0).val * 2048 + (i 1).val) * 16384 + (i 2).val
    rfl)

end Cert.KernelIdeal.HostValue

end
-- ==== Proof.Dequant.lean ====
/-
  The first region's value: the array the dequantising kernel leaves.

  Each of its 32 grid points takes 512 rows of the weight and the same 512 rows of the scale rows, and writes the
  512 x 4096 block of the output in 32 column strips of 128: strip c is the weight's strip c times column c of the
  scale rows, repeated along the strip.  So every entry (r, k) of a block is weight (r, k) * scaleRows (r, k / 128),
  the blocks are the consecutive groups of 512 rows, and the whole array ends at `Spec.dequant` of the two arrays
  the region reads.
-/
import proofs.«137778_j5523327943222_1_alg».proof.Proof.Gen.KernelIdeal.Frame
import proofs.«137778_j5523327943222_1_alg».proof.Proof.Spec
import Idealize.ShloMosaic.Lib.Pipeline.Value
import Idealize.ShloMosaic.Lib.ValueIdx

set_option maxRecDepth 16384

noncomputable section

namespace Cert.KernelIdeal.DequantValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- One strip at one of its indices: the weight's slice at offsets `o0` times the broadcast of the scale's one-column
    slice at offsets `o1`, narrowed, is the weight at the shifted index times the scale at the shifted row and the
    slice's column. -/
theorem strip_apply (x0 : Vec Ideal S512x4096 .f32) (v2 : FVec Ideal S512x32 .f32) (o0 o1 : Fin 2 → Nat)
    (h0 : S512x4096.Slices o0 S512x128) (h1 : S512x32.Slices o1 S512x1) (hb : S512x1.Broadcasts S512x128)
    (hlt : FTy.bf16.bits < FTy.f32.bits) (y : S512x128.Idx) (k0 : S512x4096.Idx) (k1 : S512x32.Idx)
    (e00 : (k0 0).val = o0 0 + (y 0).val) (e01 : (k0 1).val = o0 1 + (y 1).val)
    (e10 : (k1 0).val = o1 0 + (y 0).val) (e11 : (k1 1).val = o1 1) :
    truncf .bf16 (mulf (extractStridedSlice S512x128 o0 x0 h0)
      (broadcastTo S512x128 (extractStridedSlice S512x1 o1 v2 h1) hb)) hlt y = x0 k0 * v2 k1 := by
  rw [ValueIdx.truncf_apply, ValueIdx.mulf_apply]
  have s0 : extractStridedSlice S512x128 o0 x0 h0 y = x0 k0 :=
    extractStridedSlice_apply o0 x0 h0 y k0 (by
      intro a
      match a with
      | ⟨0, _⟩ => exact e00
      | ⟨1, _⟩ => exact e01)
  have s1 : broadcastTo S512x128 (extractStridedSlice S512x1 o1 v2 h1) hb y
      = extractStridedSlice S512x1 o1 v2 h1 (ix2 (⟨(y 0).val, (y 0).isLt⟩ : Fin 512) (⟨0, Nat.one_pos⟩ : Fin 1)) :=
    broadcastTo_apply _ hb y _ (by
      intro a
      match a with
      | ⟨0, _⟩ => rfl
      | ⟨1, _⟩ => rfl)
  have s2 : extractStridedSlice S512x1 o1 v2 h1 (ix2 (⟨(y 0).val, (y 0).isLt⟩ : Fin 512) (⟨0, Nat.one_pos⟩ : Fin 1)) = v2 k1 :=
    extractStridedSlice_apply o1 v2 h1 _ k1 (by
      intro a
      match a with
      | ⟨0, _⟩ => exact e10
      | ⟨1, _⟩ => show (k1 1).val = o1 1 + 0; omega)
  rw [s0, s1, s2]

/-- What a grid point leaves at index `y` of its output block, from its two input blocks: the weight's entry times
    the scale on the same row in the column of the entry's group of 128. -/
def blockVal (x0 : Vec Ideal S512x4096 .f32) (x1 : Vec Ideal S512x32 .f32) : Vec Ideal S512x4096 .bf16 := fun y =>
  x0 y * x1 (ix2 (⟨(y 0).val, (y 0).isLt⟩ : Fin 512)
    (⟨(y 1).val / 128, by have h : (y 1).val < 4096 := (y 1).isLt; omega⟩ : Fin 32))

/-- A strip whose column offset is 128 times the scale column it uses is the block function under the strip's
    rectangle. -/
theorem strip_eq (x0 : Vec Ideal S512x4096 .f32) (v2 : FVec Ideal S512x32 .f32) (o0 o1 : Fin 2 → Nat)
    (h0 : S512x4096.Slices o0 S512x128) (h1 : S512x32.Slices o1 S512x1) (hb : S512x1.Broadcasts S512x128)
    (hlt : FTy.bf16.bits < FTy.f32.bits) (inb : ∀ a, o0 a + S512x128.size a ≤ S512x4096.size a)
    (z0 : o0 0 = 0) (z1 : o1 0 = 0) (hc : o0 1 = 128 * o1 1) (x : S512x128.Idx) :
    truncf .bf16 (mulf (extractStridedSlice S512x128 o0 x0 h0)
      (broadcastTo S512x128 (extractStridedSlice S512x1 o1 v2 h1) hb)) hlt x
      = blockVal x0 v2 ((Rect.unit (s := S512x4096) o0 S512x128.size inb).emb x) := by
  have hx0 : (x 0).val < 512 := (x 0).isLt
  have hx1 : (x 1).val < 128 := (x 1).isLt
  have q0 : (((Rect.unit (s := S512x4096) o0 S512x128.size inb).emb x) 0).val = o0 0 + 1 * (x 0).val := rfl
  have q1 : (((Rect.unit (s := S512x4096) o0 S512x128.size inb).emb x) 1).val = o0 1 + 1 * (x 1).val := rfl
  unfold blockVal
  refine strip_apply x0 v2 o0 o1 h0 h1 hb hlt x _ _ ?_ ?_ ?_ ?_
  · rw [q0]; omega
  · rw [q1]; omega
  · show (((Rect.unit (s := S512x4096) o0 S512x128.size inb).emb x) 0).val = o1 0 + (x 0).val
    rw [q0]; omega
  · show (((Rect.unit (s := S512x4096) o0 S512x128.size inb).emb x) 1).val / 128 = o1 1
    rw [q1]; omega

/-- The row-major recast of the scale block to its own shape changes nothing. -/
theorem recast_eq (x1 : Vec Ideal S512x32 .f32) : k0_pay1 (F := Ideal) x1 = x1 := by
  unfold k0_pay1; exact shapeCast_self x1 _

/-- The 32 strips the body stores are the 32 groups of 128 columns of one function of the block index, and together
    they fill the block, so the output buffer after the body is that function of the two input blocks. -/
theorem body_eq_blockVal (x0 : Vec Ideal S512x4096 .f32) (x1 : Vec Ideal S512x32 .f32) :
    out0_2 (F := Ideal) x0 x1 = blockVal x0 x1 := by
  funext y
  have e1 := recast_eq x1
  unfold out0_2
  simp only [View.ld_unit_zero (S := S512x4096) zero_off, View.ld_unit_zero (S := S512x32) zero_off, e1]
  refine View.canon_apply_of_pieces (blockVal x0 x1) _ ?_ y
    (cover0_2 (F := Ideal) _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x; unfold k0_pay35
    exact strip_eq x0 x1 ![0, 3968] ![0, 31] slices_S512x4096_o0_3968_S512x128 slices_S512x32_o0_31_S512x1 broadcasts_S512x1_S512x128 bitsLt_bf16_f32 inb_S512x4096_S512x128_0_3968 rfl rfl rfl x
  · intro x; unfold k0_pay34
    exact strip_eq x0 x1 ![0, 3840] ![0, 30] slices_S512x4096_o0_3840_S512x128 slices_S512x32_o0_30_S512x1 broadcasts_S512x1_S512x128 bitsLt_bf16_f32 inb_S512x4096_S512x128_0_3840 rfl rfl rfl x
  · intro x; unfold k0_pay33
    exact strip_eq x0 x1 ![0, 3712] ![0, 29] slices_S512x4096_o0_3712_S512x128 slices_S512x32_o0_29_S512x1 broadcasts_S512x1_S512x128 bitsLt_bf16_f32 inb_S512x4096_S512x128_0_3712 rfl rfl rfl x
  · intro x; unfold k0_pay32
    exact strip_eq x0 x1 ![0, 3584] ![0, 28] slices_S512x4096_o0_3584_S512x128 slices_S512x32_o0_28_S512x1 broadcasts_S512x1_S512x128 bitsLt_bf16_f32 inb_S512x4096_S512x128_0_3584 rfl rfl rfl x
  · intro x; unfold k0_pay31
    exact strip_eq x0 x1 ![0, 3456] ![0, 27] slices_S512x4096_o0_3456_S512x128 slices_S512x32_o0_27_S512x1 broadcasts_S512x1_S512x128 bitsLt_bf16_f32 inb_S512x4096_S512x128_0_3456 rfl rfl rfl x
  · intro x; unfold k0_pay30
    exact strip_eq x0 x1 ![0, 3328] ![0, 26] slices_S512x4096_o0_3328_S512x128 slices_S512x32_o0_26_S512x1 broadcasts_S512x1_S512x128 bitsLt_bf16_f32 inb_S512x4096_S512x128_0_3328 rfl rfl rfl x
  · intro x; unfold k0_pay29
    exact strip_eq x0 x1 ![0, 3200] ![0, 25] slices_S512x4096_o0_3200_S512x128 slices_S512x32_o0_25_S512x1 broadcasts_S512x1_S512x128 bitsLt_bf16_f32 inb_S512x4096_S512x128_0_3200 rfl rfl rfl x
  · intro x; unfold k0_pay28
    exact strip_eq x0 x1 ![0, 3072] ![0, 24] slices_S512x4096_o0_3072_S512x128 slices_S512x32_o0_24_S512x1 broadcasts_S512x1_S512x128 bitsLt_bf16_f32 inb_S512x4096_S512x128_0_3072 rfl rfl rfl x
  · intro x; unfold k0_pay27
    exact strip_eq x0 x1 ![0, 2944] ![0, 23] slices_S512x4096_o0_2944_S512x128 slices_S512x32_o0_23_S512x1 broadcasts_S512x1_S512x128 bitsLt_bf16_f32 inb_S512x4096_S512x128_0_2944 rfl rfl rfl x
  · intro x; unfold k0_pay26
    exact strip_eq x0 x1 ![0, 2816] ![0, 22] slices_S512x4096_o0_2816_S512x128 slices_S512x32_o0_22_S512x1 broadcasts_S512x1_S512x128 bitsLt_bf16_f32 inb_S512x4096_S512x128_0_2816 rfl rfl rfl x
  · intro x; unfold k0_pay25
    exact strip_eq x0 x1 ![0, 2688] ![0, 21] slices_S512x4096_o0_2688_S512x128 slices_S512x32_o0_21_S512x1 broadcasts_S512x1_S512x128 bitsLt_bf16_f32 inb_S512x4096_S512x128_0_2688 rfl rfl rfl x
  · intro x; unfold k0_pay24
    exact strip_eq x0 x1 ![0, 2560] ![0, 20] slices_S512x4096_o0_2560_S512x128 slices_S512x32_o0_20_S512x1 broadcasts_S512x1_S512x128 bitsLt_bf16_f32 inb_S512x4096_S512x128_0_2560 rfl rfl rfl x
  · intro x; unfold k0_pay23 k0_pay22
    exact strip_eq x0 x1 ![0, 2432] ![0, 19] slices_S512x4096_o0_2432_S512x128 slices_S512x32_o0_19_S512x1 broadcasts_S512x1_S512x128 bitsLt_bf16_f32 inb_S512x4096_S512x128_0_2432 rfl rfl rfl x
  · intro x; unfold k0_pay21
    exact strip_eq x0 x1 ![0, 2304] ![0, 18] slices_S512x4096_o0_2304_S512x128 slices_S512x32_o0_18_S512x1 broadcasts_S512x1_S512x128 bitsLt_bf16_f32 inb_S512x4096_S512x128_0_2304 rfl rfl rfl x
  · intro x; unfold k0_pay20
    exact strip_eq x0 x1 ![0, 2176] ![0, 17] slices_S512x4096_o0_2176_S512x128 slices_S512x32_o0_17_S512x1 broadcasts_S512x1_S512x128 bitsLt_bf16_f32 inb_S512x4096_S512x128_0_2176 rfl rfl rfl x
  · intro x; unfold k0_pay19
    exact strip_eq x0 x1 ![0, 2048] ![0, 16] slices_S512x4096_o0_2048_S512x128 slices_S512x32_o0_16_S512x1 broadcasts_S512x1_S512x128 bitsLt_bf16_f32 inb_S512x4096_S512x128_0_2048 rfl rfl rfl x
  · intro x; unfold k0_pay18
    exact strip_eq x0 x1 ![0, 1920] ![0, 15] slices_S512x4096_o0_1920_S512x128 slices_S512x32_o0_15_S512x1 broadcasts_S512x1_S512x128 bitsLt_bf16_f32 inb_S512x4096_S512x128_0_1920 rfl rfl rfl x
  · intro x; unfold k0_pay17
    exact strip_eq x0 x1 ![0, 1792] ![0, 14] slices_S512x4096_o0_1792_S512x128 slices_S512x32_o0_14_S512x1 broadcasts_S512x1_S512x128 bitsLt_bf16_f32 inb_S512x4096_S512x128_0_1792 rfl rfl rfl x
  · intro x; unfold k0_pay16
    exact strip_eq x0 x1 ![0, 1664] ![0, 13] slices_S512x4096_o0_1664_S512x128 slices_S512x32_o0_13_S512x1 broadcasts_S512x1_S512x128 bitsLt_bf16_f32 inb_S512x4096_S512x128_0_1664 rfl rfl rfl x
  · intro x; unfold k0_pay15 k0_pay14
    exact strip_eq x0 x1 ![0, 1536] ![0, 12] slices_S512x4096_o0_1536_S512x128 slices_S512x32_o0_12_S512x1 broadcasts_S512x1_S512x128 bitsLt_bf16_f32 inb_S512x4096_S512x128_0_1536 rfl rfl rfl x
  · intro x; unfold k0_pay13
    exact strip_eq x0 x1 ![0, 1408] ![0, 11] slices_S512x4096_o0_1408_S512x128 slices_S512x32_o0_11_S512x1 broadcasts_S512x1_S512x128 bitsLt_bf16_f32 inb_S512x4096_S512x128_0_1408 rfl rfl rfl x
  · intro x; unfold k0_pay12
    exact strip_eq x0 x1 ![0, 1280] ![0, 10] slices_S512x4096_o0_1280_S512x128 slices_S512x32_o0_10_S512x1 broadcasts_S512x1_S512x128 bitsLt_bf16_f32 inb_S512x4096_S512x128_0_1280 rfl rfl rfl x
  · intro x; unfold k0_pay11
    exact strip_eq x0 x1 ![0, 1152] ![0, 9] slices_S512x4096_o0_1152_S512x128 slices_S512x32_o0_9_S512x1 broadcasts_S512x1_S512x128 bitsLt_bf16_f32 inb_S512x4096_S512x128_0_1152 rfl rfl rfl x
  · intro x; unfold k0_pay10
    exact strip_eq x0 x1 ![0, 1024] ![0, 8] slices_S512x4096_o0_1024_S512x128 slices_S512x32_o0_8_S512x1 broadcasts_S512x1_S512x128 bitsLt_bf16_f32 inb_S512x4096_S512x128_0_1024 rfl rfl rfl x
  · intro x; unfold k0_pay9
    exact strip_eq x0 x1 ![0, 896] ![0, 7] slices_S512x4096_o0_896_S512x128 slices_S512x32_o0_7_S512x1 broadcasts_S512x1_S512x128 bitsLt_bf16_f32 inb_S512x4096_S512x128_0_896 rfl rfl rfl x
  · intro x; unfold k0_pay8
    exact strip_eq x0 x1 ![0, 768] ![0, 6] slices_S512x4096_o0_768_S512x128 slices_S512x32_o0_6_S512x1 broadcasts_S512x1_S512x128 bitsLt_bf16_f32 inb_S512x4096_S512x128_0_768 rfl rfl rfl x
  · intro x; unfold k0_pay7; rw [e1]
    exact strip_eq x0 x1 ![0, 640] ![0, 5] slices_S512x4096_o0_640_S512x128 slices_S512x32_o0_5_S512x1 broadcasts_S512x1_S512x128 bitsLt_bf16_f32 inb_S512x4096_S512x128_0_640 rfl rfl rfl x
  · intro x; unfold k0_pay6; rw [e1]
    exact strip_eq x0 x1 ![0, 512] ![0, 4] slices_S512x4096_o0_512_S512x128 slices_S512x32_o0_4_S512x1 broadcasts_S512x1_S512x128 bitsLt_bf16_f32 inb_S512x4096_S512x128_0_512 rfl rfl rfl x
  · intro x; unfold k0_pay5; rw [e1]
    exact strip_eq x0 x1 ![0, 384] ![0, 3] slices_S512x4096_o0_384_S512x128 slices_S512x32_o0_3_S512x1 broadcasts_S512x1_S512x128 bitsLt_bf16_f32 inb_S512x4096_S512x128_0_384 rfl rfl rfl x
  · intro x; unfold k0_pay4; rw [e1]
    exact strip_eq x0 x1 ![0, 256] ![0, 2] slices_S512x4096_o0_256_S512x128 slices_S512x32_o0_2_S512x1 broadcasts_S512x1_S512x128 bitsLt_bf16_f32 inb_S512x4096_S512x128_0_256 rfl rfl rfl x
  · intro x; unfold k0_pay3; rw [e1]
    exact strip_eq x0 x1 ![0, 128] ![0, 1] slices_S512x4096_o0_128_S512x128 slices_S512x32_o0_1_S512x1 broadcasts_S512x1_S512x128 bitsLt_bf16_f32 inb_S512x4096_S512x128_0_128 rfl rfl rfl x
  · intro x; unfold k0_pay2; rw [e1]
    exact strip_eq x0 x1 ![0, 0] ![0, 0] slices_S512x4096_o0_0_S512x128 slices_S512x32_o0_0_S512x1 broadcasts_S512x1_S512x128 bitsLt_bf16_f32 inb_S512x4096_S512x128_0_0 rfl rfl rfl x

/-- The three windows' index maps, decided over the 32 grid points: at point `t` each window sits on block row `t`
    and block column 0. -/
theorem block_rows : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The weight's block at point `t`, at block index `y`, is the weight at row `512 t + y 0` and column `y 1`. -/
theorem weight_blk_apply (c : Dev nD) (t : Fin cfg0.N) (y : S512x4096.Idx) (i : S16384x4096.Idx)
    (h0 : (i 0).val = t.val * 512 + (y 0).val) (h1 : (i 1).val = (y 1).val) :
    iblk0 (F := Ideal) V c 0 t y = V c main_arg1 i := by
  obtain ⟨-, -, e0, e1, -, -⟩ := block_rows t
  show V c main_arg1 (((cfg0.win 0).blk t).view.emb y) = V c main_arg1 i
  refine congrArg (V c main_arg1) ?_
  funext a; apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The scale rows' block at point `t`, at block index `y`, is the scale rows at row `512 t + y 0` and column `y 1`. -/
theorem scale_blk_apply (c : Dev nD) (t : Fin cfg0.N) (y : S512x32.Idx) (i : S16384x32.Idx)
    (h0 : (i 0).val = t.val * 512 + (y 0).val) (h1 : (i 1).val = (y 1).val) :
    iblk0 (F := Ideal) V c 1 t y = V c main_v3 i := by
  obtain ⟨-, -, -, -, e0, e1⟩ := block_rows t
  show V c main_v3 (((cfg0.win 1).blk t).view.emb y) = V c main_v3 i
  refine congrArg (V c main_v3) ?_
  funext a; apply Fin.ext
  match a with
  | ⟨0, _⟩ => show win0_1.index t (0 : Fin 2) * 512 + 1 * (y 0).val = (i 0).val; omega
  | ⟨1, _⟩ => show win0_1.index t (1 : Fin 2) * 32 + 1 * (y 1).val = (i 1).val; omega

/-- The block function of the two blocks at point `t`, at block index `y`, is the dequantised weight at the array
    index `i` of row `512 t + y 0` and column `y 1`: the row is shifted by a whole number of blocks and the column
    not at all, so the group of 128 columns is the same. -/
theorem blockVal_blk (c : Dev nD) (t : Fin cfg0.N) (y : S512x4096.Idx) (i : S16384x4096.Idx)
    (h0 : (i 0).val = t.val * 512 + (y 0).val) (h1 : (i 1).val = (y 1).val) :
    blockVal (iblk0 (F := Ideal) V c 0 t) (iblk0 (F := Ideal) V c 1 t) y
      = Cert.Spec.dequant (V c main_arg1) (V c main_v3) i := by
  have hy1 : (y 1).val < 4096 := (y 1).isLt
  have hi0 : (i 0).val < 16384 := (i 0).isLt
  unfold blockVal Cert.Spec.dequant
  rw [weight_blk_apply V c t y i h0 h1,
    scale_blk_apply V c t
      (ix2 (⟨(y 0).val, (y 0).isLt⟩ : Fin 512) (⟨(y 1).val / 128, by omega⟩ : Fin 32))
      (ix2 (⟨(i 0).val, (i 0).isLt⟩ : Fin 16384) (⟨(i 1).val / 128, by omega⟩ : Fin 32))
      (by show (i 0).val = t.val * 512 + (y 0).val; exact h0)
      (by show (i 1).val / 128 = (y 1).val / 128; rw [h1])]

/-- The block point `t` writes back is the block of rows `512 t .. 512 t + 511` of the dequantised weight of the two
    arrays the region reads. -/
theorem written_back_eq (c : Dev nD) (t : Fin cfg0.N) :
    (dat0 (F := Ideal) V c).flushed 2 t
      = ((cfg0.win 2).blk t).view.read (Elt Ideal) (Cert.Spec.dequant (V c main_arg1) (V c main_v3)) := by
  show (cfg0.win 2).cut (grid0.coords t) ((dat0 (F := Ideal) V c).after 2 t) = _
  rw [after0_2, body_eq_blockVal]
  obtain ⟨e0, e1, -, -, -, -⟩ := block_rows t
  funext j
  show blockVal (iblk0 (F := Ideal) V c 0 t) (iblk0 (F := Ideal) V c 1 t) ((cfg0.win 2).xinj (grid0.coords t) j)
    = Cert.Spec.dequant (V c main_arg1) (V c main_v3) (((cfg0.win 2).blk t).view.emb j)
  refine blockVal_blk V c t ((cfg0.win 2).xinj (grid0.coords t) j) (((cfg0.win 2).blk t).view.emb j) ?_ ?_
  · show win0_2.index t (0 : Fin 2) * 512 + 1 * (j 0).val = t.val * 512 + (j 0).val; omega
  · show win0_2.index t (1 : Fin 2) * 4096 + 1 * (j 1).val = (j 1).val; omega

/-- An index of the output array lies in the block of point `t` exactly when, on each axis, its coordinate is within
    the block's extent from the block's first coordinate. -/
theorem mem_row_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v4).slice (win0_2.rect t)).set ↔ _
  rw [View.set_slice_whole, Rect.mem_set_unit]
  exact Iff.rfl

/-- Every index (o, k) of the output array is in the block of the point `o / 512`, which writes it back. -/
theorem row_block_covers (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := rfl
  obtain ⟨t, et⟩ : ∃ t : Fin cfg0.N, t.val = (i 0).val / 512 := ⟨⟨(i 0).val / 512, by rw [hN]; omega⟩, rfl⟩
  obtain ⟨e0, e1, -, -, -, -⟩ := block_rows t
  refine ⟨t, flush0_2 t, ?_⟩
  rw [mem_row_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-- After the first region its output array holds the dequantised weight of the two arrays it reads. -/
theorem final (c : Dev nD) :
    (dat0 (F := Ideal) V c).arrAt 2 cfg0.N = Cert.Spec.dequant (V c main_arg1) (V c main_v3) := by
  exact (dat0 (F := Ideal) V c).arrAt_eq_of_cover 2 _ (fun t _ => written_back_eq V c t) row_block_covers

end Cert.KernelIdeal.DequantValue

end
-- ==== Proof.Matmul.lean ====
/-
  The second region's value: the array the matrix-product kernel leaves.

  Grid point (i, j) of its 16 x 16 grid takes rows 512 i .. 512 i + 511 of the activation rows and rows
  1024 j .. 1024 j + 1023 of the dequantised weight, and writes the 512 x 1024 block (i, j) of the output: entry
  (r, o) of the block is row r of the one against row o of the other, summed over the 4096 shared columns, added
  to a zero accumulator.  The blocks tile the output, so the whole array ends at `Spec.rowsDot` of the two arrays
  the region reads.
-/
import proofs.«137778_j5523327943222_1_alg».proof.Proof.Gen.KernelIdeal.Frame
import proofs.«137778_j5523327943222_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One entry of the product of a block pair -/

/-- The row of the left factor an output entry uses is the entry's own row. -/
theorem lhs_row (j : S512x1024.Idx) (q : dot_S512x4096_S1024x4096_S512x1024_1_1_0_0_n_n.contr.Idx) :
    (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl

/-- The column of the left factor is the summation index. -/
theorem lhs_col (j : S512x1024.Idx) (q : dot_S512x4096_S1024x4096_S512x1024_1_1_0_0_n_n.contr.Idx) :
    (dot_S512x4096_S1024x4096_S512x1024_1_1_0_0_n_n.lhsIdx j q 1).val = (q ⟨0, by decide⟩).val :=
  dot_S512x4096_S1024x4096_S512x1024_1_1_0_0_n_n.lhsIdx_val_of_single rfl j q

/-- The row of the right factor an output entry uses is the entry's column. -/
theorem rhs_row (j : S512x1024.Idx) (q : dot_S512x4096_S1024x4096_S512x1024_1_1_0_0_n_n.contr.Idx) :
    (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl

/-- The column of the right factor is the summation index. -/
theorem rhs_col (j : S512x1024.Idx) (q : dot_S512x4096_S1024x4096_S512x1024_1_1_0_0_n_n.contr.Idx) :
    (dot_S512x4096_S1024x4096_S512x1024_1_1_0_0_n_n.rhsIdx j q 1).val = (q ⟨0, by decide⟩).val :=
  dot_S512x4096_S1024x4096_S512x1024_1_1_0_0_n_n.rhsIdx_val_of_single rfl j q

/-- Entry (r, o) of the product of a 512 x 4096 block and a 1024 x 4096 block, both contracted along their
    columns into a zero accumulator: row r of the first against row o of the second. -/
theorem pay_apply (x0 : Vec Ideal S512x4096 .bf16) (x1 : Vec Ideal S1024x4096 .bf16) (j : S512x1024.Idx) :
    k1_pay1 (F := Ideal) x0 x1 j
      = ∑ k : Fin 4096, x0 (ix2 (⟨(j 0).val, (j 0).isLt⟩ : Fin 512) k) * x1 (ix2 (⟨(j 1).val, (j 1).isLt⟩ : Fin 1024) k) := by
  unfold k1_pay1
  rw [shapeCast_self, shapeCast_self]
  show FloatOps.matmul (F := Ideal) dot_S512x4096_S1024x4096_S512x1024_1_1_0_0_n_n none (φ₁ := .bf16) (φ₂ := .bf16) x0 x1 (constant S512x1024 .f32 0x00000000#32) j = _
  rw [Ideal.matmul_constant_zero_apply,
    ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx j ((ValueIdx.contrEquiv1 dot_S512x4096_S1024x4096_S512x1024_1_1_0_0_n_n 4096 rfl rfl).symm k)
      = ix2 (⟨(j 0).val, (j 0).isLt⟩ : Fin 512) k := funext fun a => Fin.ext (by
    match a with
    | ⟨0, _⟩ => exact lhs_row _ _
    | ⟨1, _⟩ => exact (lhs_col _ _).trans hk)
  have er : dot_S512x4096_S1024x4096_S512x1024_1_1_0_0_n_n.rhsIdx j ((ValueIdx.contrEquiv1 dot_S512x4096_S1024x4096_S512x1024_1_1_0_0_n_n 4096 rfl rfl).symm k)
      = ix2 (⟨(j 1).val, (j 1).isLt⟩ : Fin 1024) k := funext fun a => Fin.ext (by
    match a with
    | ⟨0, _⟩ => exact rhs_row _ _
    | ⟨1, _⟩ => exact (rhs_col _ _).trans hk)
  rw [el, er]

/-! ## Which rows each grid point takes -/

theorem hz : (![0, 0] : Fin 2 → Nat) = fun _ => 0 := funext fun a => by fin_cases a <;> rfl

/-- The three index maps over the 256 grid points: the first window's block row is the output's block row, the
    second window's block row is the output's block column, both input blocks start at column 0, and the output's
    block indices stay below 16. -/
theorem idx_facts : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 15
    ∧ win1_2.index t (1 : Fin 2) ≤ 15 :=
  (by decide +kernel : ∀ t : Fin grid1.N, _)

/-- Grid point 16 p + q has output block (p, q). -/
theorem idx_point : ∀ p q : Fin 16,
    win1_2.index (⟨p.val * 16 + q.val, by show _ < grid1.N; rw [N_1]; omega⟩ : Fin cfg1.N) = ![p.val, q.val] :=
  (by decide +kernel : ∀ p q : Fin 16,
    win1_2.index (⟨p.val * 16 + q.val, by show _ < grid1.N; rw [N_1]; omega⟩ : Fin grid1.N) = ![p.val, q.val])

/-- The first window's block at a point: rows 512 p .. 512 p + 511 of the first array, p the output's block row. -/
theorem read_lhs (c : Dev nD) (t : Fin cfg1.N) (y : S512x4096.Idx) :
    iblk1 (F := Ideal) V c 0 t y
      = V c main_v1 (ix2 (⟨win1_2.index t (0 : Fin 2) * 512 + (y 0).val, by
            have e := (idx_facts t).2.2.2.2.1; have h : (y 0).val < 512 := (y 0).isLt; omega⟩ : Fin 8192)
          (⟨(y 1).val, (y 1).isLt⟩ : Fin 4096)) := by
  obtain ⟨e0, e1, e2, e3, e4, e5⟩ := idx_facts t
  show V c main_v1 (((cfg1.win 0).blk t).view.emb y) = V c main_v1 _
  refine congrArg (V c main_v1) ?_
  funext a; apply Fin.ext
  match a with
  | ⟨0, _⟩ => show win1_0.index t (0 : Fin 2) * 512 + 1 * (y 0).val = win1_2.index t (0 : Fin 2) * 512 + (y 0).val; omega
  | ⟨1, _⟩ => show win1_0.index t (1 : Fin 2) * 4096 + 1 * (y 1).val = (y 1).val; omega

/-- The second window's block at a point: rows 1024 q .. 1024 q + 1023 of the second array, q the output's block
    column. -/
theorem read_rhs (c : Dev nD) (t : Fin cfg1.N) (y : S1024x4096.Idx) :
    iblk1 (F := Ideal) V c 1 t y
      = V c main_v4 (ix2 (⟨win1_2.index t (1 : Fin 2) * 1024 + (y 0).val, by
            have e := (idx_facts t).2.2.2.2.2; have h : (y 0).val < 1024 := (y 0).isLt; omega⟩ : Fin 16384)
          (⟨(y 1).val, (y 1).isLt⟩ : Fin 4096)) := by
  obtain ⟨e0, e1, e2, e3, e4, e5⟩ := idx_facts t
  show V c main_v4 (((cfg1.win 1).blk t).view.emb y) = V c main_v4 _
  refine congrArg (V c main_v4) ?_
  funext a; apply Fin.ext
  match a with
  | ⟨0, _⟩ => show win1_1.index t (0 : Fin 2) * 1024 + 1 * (y 0).val = win1_2.index t (1 : Fin 2) * 1024 + (y 0).val; omega
  | ⟨1, _⟩ => show win1_1.index t (1 : Fin 2) * 4096 + 1 * (y 1).val = (y 1).val; omega

/-! ## One block of the output -/

/-- If a 512 x 4096 block holds rows 512 p .. of `a` and a 1024 x 4096 block holds rows 1024 q .. of `b`, entry
    (r, o) of their product is entry (512 p + r, 1024 q + o) of the rows of `a` against the rows of `b`. -/
theorem block_entry (a : Cert.Spec.Sx2.Idx → EReal) (b : Cert.Spec.Sw.Idx → EReal) (p q : Nat) (hp : p ≤ 15) (hq : q ≤ 15)
    (x0 : Vec Ideal S512x4096 .bf16) (x1 : Vec Ideal S1024x4096 .bf16)
    (h0 : ∀ y : S512x4096.Idx, x0 y = a (ix2 (⟨p * 512 + (y 0).val, by
        have h : (y 0).val < 512 := (y 0).isLt; omega⟩ : Fin 8192) (⟨(y 1).val, (y 1).isLt⟩ : Fin 4096)))
    (h1 : ∀ y : S1024x4096.Idx, x1 y = b (ix2 (⟨q * 1024 + (y 0).val, by
        have h : (y 0).val < 1024 := (y 0).isLt; omega⟩ : Fin 16384) (⟨(y 1).val, (y 1).isLt⟩ : Fin 4096)))
    (j : S512x1024.Idx) :
    k1_pay1 (F := Ideal) x0 x1 j
      = Cert.Spec.rowsDot a b (ix2 (⟨p * 512 + (j 0).val, by
            have h : (j 0).val < 512 := (j 0).isLt; omega⟩ : Fin 8192)
          (⟨q * 1024 + (j 1).val, by have h : (j 1).val < 1024 := (j 1).isLt; omega⟩ : Fin 16384)) := by
  rw [pay_apply]
  unfold Cert.Spec.rowsDot
  refine Finset.sum_congr rfl fun k _ => ?_
  rw [h0, h1]

/-- What a grid point writes back is its block of the rows of the first array against the rows of the second. -/
theorem flushed_eq (c : Dev nD) (t : Fin cfg1.N) :
    (dat1 (F := Ideal) V c).flushed 2 t
      = ((cfg1.win 2).blk t).view.read (Elt Ideal) (Cert.Spec.rowsDot (V c main_v1) (V c main_v4)) := by
  show (cfg1.win 2).cut (grid1.coords t) ((dat1 (F := Ideal) V c).after 2 t) = _
  rw [after1_2]
  unfold out1_2
  rw [View.canon_unit_zero hz]
  simp only [View.ld_unit_zero (S := S512x4096) hz, View.ld_unit_zero (S := S1024x4096) hz]
  obtain ⟨e0, e1, e2, e3, e4, e5⟩ := idx_facts t
  funext j
  refine (block_entry (V c main_v1) (V c main_v4) (win1_2.index t (0 : Fin 2)) (win1_2.index t (1 : Fin 2)) e4 e5
    (iblk1 (F := Ideal) V c 0 t) (iblk1 (F := Ideal) V c 1 t) (read_lhs V c t) (read_rhs V c t)
    ((cfg1.win 2).xinj (grid1.coords t) j)).trans ?_
  show Cert.Spec.rowsDot (V c main_v1) (V c main_v4) _
    = Cert.Spec.rowsDot (V c main_v1) (V c main_v4) (((cfg1.win 2).blk t).view.emb j)
  refine congrArg (Cert.Spec.rowsDot (V c main_v1) (V c main_v4)) ?_
  funext a; apply Fin.ext
  match a with
  | ⟨0, _⟩ => show win1_2.index t (0 : Fin 2) * 512 + (j 0).val = win1_2.index t (0 : Fin 2) * 512 + 1 * (j 0).val; omega
  | ⟨1, _⟩ => show win1_2.index t (1 : Fin 2) * 1024 + (j 1).val = win1_2.index t (1 : Fin 2) * 1024 + 1 * (j 1).val; omega

/-! ## The blocks tile the output -/

/-- An index of the output is in a point's block iff each coordinate is in the block's range on its axis. -/
theorem mem_blk (t : Fin cfg1.N) (i : S8192x16384.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v5).slice (win1_2.rect t)).set ↔ _
  rw [View.set_slice_whole, Rect.mem_set_unit]
  exact Iff.rfl

/-- Entry (r, o) of the output is in the block of grid point 16 (r / 512) + o / 1024. -/
theorem covered (i : S8192x16384.Idx) :
    ∃ t : Fin cfg1.N, (cfg1.win 2).flush t = true ∧ i ∈ ((cfg1.win 2).blk t).view.set := by
  have hi0 : (i 0).val < 8192 := (i 0).isLt
  have hi1 : (i 1).val < 16384 := (i 1).isLt
  obtain ⟨t, ht⟩ : ∃ t : Fin cfg1.N, win1_2.index t = ![(i 0).val / 512, (i 1).val / 1024] :=
    ⟨_, idx_point ⟨(i 0).val / 512, by omega⟩ ⟨(i 1).val / 1024, by omega⟩⟩
  have q0 : win1_2.index t (0 : Fin 2) = (i 0).val / 512 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- After the second region its output array holds the rows of its first array against the rows of its second. -/
theorem final (c : Dev nD) :
    (dat1 (F := Ideal) V c).arrAt 2 cfg1.N = Cert.Spec.rowsDot (V c main_v1) (V c main_v4) := by
  exact (dat1 (F := Ideal) V c).arrAt_eq_of_cover 2 _ (fun t _ => flushed_eq V c t) covered

end Cert.KernelIdeal.MatmulValue

end
-- ==== Proof.KernelValue.lean ====
/-
  The kernel program's value: the result array ends at the closed form of the three arguments.

  The program's stretches compose.  The last host stretch splits the leading axis of the second region's output;
  that output is the rows of the array it reads first (the flattened activation, which the first region does not
  touch) against the rows of the array it reads second, which is the first region's output: the weight times the
  scale rows, both as the first stretch left them (the weight untouched, the scales with each row repeated 128
  times).  Together that is the staged computation of `Spec`, which is the closed form.
-/
import proofs.«137778_j5523327943222_1_alg».proof.Proof.Gen.KernelIdeal.Frame
import proofs.«137778_j5523327943222_1_alg».proof.Proof.Spec
import proofs.«137778_j5523327943222_1_alg».proof.Proof.KernelRun
import proofs.«137778_j5523327943222_1_alg».proof.Proof.HostStretch
import proofs.«137778_j5523327943222_1_alg».proof.Proof.Dequant
import proofs.«137778_j5523327943222_1_alg».proof.Proof.Matmul

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second region reads the flattened activation: the first region leaves it as the first stretch made it. -/
theorem rows_at_second_entry (c : Dev nD) :
    V2 (F := Ideal) m ρ c main_v1 = Cert.Spec.flatRows (m ((c : Thread nD τ).loc main_arg0)) :=
  (W2_of_ne m ρ c main_v1 (by decide)).trans (HostValue.entry_x m ρ c)

/-- The second region reads the dequantised weight: the first region's output, of the weight as launched and the
    scales with each row repeated 128 times. -/
theorem weight_at_second_entry (c : Dev nD) :
    V2 (F := Ideal) m ρ c main_v4
      = Cert.Spec.dequant (m ((c : Thread nD τ).loc main_arg1)) (Cert.Spec.scaleRows (m ((c : Thread nD τ).loc main_arg2))) := by
  refine (W2_arr m ρ c 2).trans ((DequantValue.final (V1 m ρ) c).trans ?_)
  rw [show V1 (F := Ideal) m ρ c main_arg1 = m ((c : Thread nD τ).loc main_arg1) from HostValue.entry_w m ρ c,
    show V1 (F := Ideal) m ρ c main_v3 = Cert.Spec.scaleRows (m ((c : Thread nD τ).loc main_arg2)) from HostValue.entry_scale m ρ c]

/-- The second region's output: the rows of the flattened activation against the rows of the dequantised weight. -/
theorem product_at_exit (c : Dev nD) :
    W3 (F := Ideal) m ρ c (Proc.devRef .tc main_v5)
      = Cert.Spec.rowsDot (Cert.Spec.flatRows (m ((c : Thread nD τ).loc main_arg0)))
          (Cert.Spec.dequant (m ((c : Thread nD τ).loc main_arg1)) (Cert.Spec.scaleRows (m ((c : Thread nD τ).loc main_arg2)))) := by
  refine (W3_arr m ρ c 2).trans ((MatmulValue.final (V2 m ρ) c).trans ?_)
  rw [rows_at_second_entry m ρ c, weight_at_second_entry m ρ c]

/-- After the last stretch the result array holds the closed form. -/
theorem result_at_exit (c : Dev nD) :
    W4 (F := Ideal) m ρ c (Proc.devRef .tc main_v6)
      = Cert.Spec.result (m ((c : Thread nD τ).loc main_arg0)) (m ((c : Thread nD τ).loc main_arg1)) (m ((c : Thread nD τ).loc main_arg2)) := by
  rw [HostValue.exit_y m ρ c, product_at_exit m ρ c, Cert.Spec.staged_eq_result]

/-- The program's run: it terminates without a fault, the result array at the closed form of the arguments, the
    arguments as launched. -/
theorem run : θ_run defs (onTc (τ := τ) (main (F := Ideal))) ⟨m, fun _ => 0, ρ⟩ (fun r => ∀ c : Dev nD,
      r.2.mem ((c.tc : Thread nD τ).loc main_v6)
        = Cert.Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_at_exit m ρ c), (h c).2⟩) (NamedRun.run m ρ)

end Cert.KernelIdeal.KernelValue

end
-- ==== Proof.RefValue.lean ====
/-
  The reference's value is the closed form.

  The reference repeats each scale row 128 times and each scale column 128 times (entry (o, k) of the repeated
  array is scale (o / 128, k / 128)), multiplies the weight by it entry by entry, and contracts the activation's last
  axis with the product's last axis.  Read at an index (b, s, o), that is the sum over k of
  x (b, s, k) * (weight (o, k) * scale (o / 128, k / 128)).
-/
import proofs.«137778_j5523327943222_1_alg».proof.Proof.Gen.ReferenceIdeal.Read
import proofs.«137778_j5523327943222_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The activation entry the contraction reads at (b, s, o) and k is x (b, s, k). -/
theorem lhs_index (i : S4x2048x16384.Idx) (k : Fin 4096) :
    lidx_main_v5 i k = ix3 (⟨(i 0).val, (i 0).isLt⟩ : Fin 4) (⟨(i 1).val, (i 1).isLt⟩ : Fin 2048) k := by
  funext a
  match a with
  | ⟨0, _⟩ => rfl
  | ⟨1, _⟩ => rfl
  | ⟨2, _⟩ => rfl

/-- The scaled-weight entry it reads is entry (o, k). -/
theorem rhs_index (i : S4x2048x16384.Idx) (k : Fin 4096) :
    ridx_main_v5 i k = ix2 (⟨(i 2).val, (i 2).isLt⟩ : Fin 16384) k := by
  funext a
  match a with
  | ⟨0, _⟩ => rfl
  | ⟨1, _⟩ => rfl

/-- Through the two repeats and the two re-layouts, entry (o, k) of the repeated scales is scale (o / 128, k / 128):
    the flat position o * 4096 + k splits as (o, k / 128, k % 128), and o * 32 + k / 128 as (o / 128, o % 128, k / 128). -/
theorem scale_index (i : S4x2048x16384.Idx) (k : Fin 4096) :
    idx_main_v0 (idx_main_v1 (idx_main_v2 (idx_main_v3 (ridx_main_v5 i k))))
      = ix2 (⟨(i 2).val / 128, by have h : (i 2).val < 16384 := (i 2).isLt; omega⟩ : Fin 128)
          (⟨k.val / 128, by have h := k.isLt; omega⟩ : Fin 32) := by
  have h2 : (i 2).val < 16384 := (i 2).isLt
  have hk : k.val < 4096 := k.isLt
  funext a
  match a with
  | ⟨0, _⟩ =>
    refine Fin.ext ?_
    show ((((i 2).val * 4096 + k.val) / 4096) * 32 + (((i 2).val * 4096 + k.val) / 128 % 32)) / 4096 = (i 2).val / 128
    omega
  | ⟨1, _⟩ =>
    refine Fin.ext ?_
    show ((((i 2).val * 4096 + k.val) / 4096) * 32 + (((i 2).val * 4096 + k.val) / 128 % 32)) % 32 = k.val / 128
    omega

/-- The reference's last stage, as a function of the three arguments, is the closed form. -/
theorem result_eq (x0 : (⟨S4x2048x4096, .f32⟩ : BufTy).Contents (Elt Ideal)) (x1 : (⟨S16384x4096, .f32⟩ : BufTy).Contents (Elt Ideal))
    (x2 : (⟨S128x32, .f32⟩ : BufTy).Contents (Elt Ideal)) :
    val_main_v5 (F := Ideal) x0 x1 x2 = Cert.Spec.result x0 x1 x2 := by
  funext i
  rw [val_main_v5_apply]
  unfold Cert.Spec.result
  refine Finset.sum_congr rfl fun k _ => ?_
  rw [val_main_v4_apply, val_main_v3_apply, val_main_v2_apply, val_main_v1_apply, val_main_v0_apply,
    lhs_index, rhs_index, scale_index, Ideal.mulf_def]

end Cert.ReferenceIdeal.RefValue

end
-- ==== Proof.lean ====
/-
  The certificate: a block-dequantised linear layer in two kernel stages against its one-line reference.

  Both programs compute, for the activation x [4, 2048, 4096], the weight [16384, 4096] and the block scales
  [128, 32], the array whose entry (b, s, o) is the sum over k of x (b, s, k) * (weight (o, k) * scale (o / 128, k / 128))
  on the extended reals (`Spec.result`).  The kernel program forms the scaled weight in a first stage (512 rows at a
  time, in strips of 128 columns) and the contraction in a second (blocks of 512 x 1024, the whole shared axis in
  one product into a zero accumulator); the reference multiplies the weight by the scales repeated along both axes
  and contracts once.  The two changes of float format in the kernel program are the identity on the extended reals,
  and a sum over a finite index set there does not depend on how it is arranged, so no finiteness of the inputs is
  used: the precondition is never opened.

  The three frames: the two kernel programs' from their launch over the program's stretches, the reference's from
  its run with the result dropped.  The idealisation rewrote nothing, so `preserves` is `True`.  For `algebraic` both
  runs are stated with the same closed form: the kernel program's (`KernelValue.run`) and the reference's run read
  one operation at a time (`RefValue.result_eq`), from memories that agree on the arguments.
-/
import proofs.«137778_j5523327943222_1_alg».proof.Defs
import proofs.«137778_j5523327943222_1_alg».proof.Proof.Gen.Kernel
import proofs.«137778_j5523327943222_1_alg».proof.Proof.Gen.Kernel.Skeleton
import proofs.«137778_j5523327943222_1_alg».proof.Proof.Gen.Kernel.Launch
import proofs.«137778_j5523327943222_1_alg».proof.Proof.Gen.Kernel.Points
import proofs.«137778_j5523327943222_1_alg».proof.Proof.Gen.Kernel.Frame
import proofs.«137778_j5523327943222_1_alg».proof.Proof.Gen.KernelIdeal
import proofs.«137778_j5523327943222_1_alg».proof.Proof.Gen.KernelIdeal.Skeleton
import proofs.«137778_j5523327943222_1_alg».proof.Proof.Gen.KernelIdeal.Launch
import proofs.«137778_j5523327943222_1_alg».proof.Proof.Gen.KernelIdeal.Points
import proofs.«137778_j5523327943222_1_alg».proof.Proof.Gen.KernelIdeal.Frame
import proofs.«137778_j5523327943222_1_alg».proof.Proof.Gen.ReferenceIdeal
import proofs.«137778_j5523327943222_1_alg».proof.Proof.Gen.Pre_finite_inputs
import proofs.«137778_j5523327943222_1_alg».proof.Proof.Gen.ReferenceIdeal.Run
import proofs.«137778_j5523327943222_1_alg».proof.Proof.Gen.ReferenceIdeal.Read
import proofs.«137778_j5523327943222_1_alg».proof.Proof.KernelValue
import proofs.«137778_j5523327943222_1_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the three arguments both programs end with the result array at the closed form of
    those arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
